-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point leaves behind, as values.

  The body keeps a 1024×1024 accumulator between the grid points of one output tile. At the first point of a tile's
  run it clears the accumulator and then adds that point's partial product into it; at every later point it adds the
  point's partial product to what the point before left; at the last point of the run it also writes the accumulator
  plus the bias row to the output tile. Each of these is one whole-buffer store, so what the buffer holds afterwards
  is that store's value, a function of the three input blocks, the bias block and the accumulator's earlier contents.
-/
import proofs.«142406_j6914897347207_1_alg».proof.Proof.Gen.KernelIdeal.Frame
import Idealize.ShloMosaic.Lib.Pipeline.Value
import Idealize.ShloMosaic.Lib.Tactic

noncomputable section

namespace Cert.KernelIdeal.Tile

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The accumulator after one more partial product: what it held, plus the product of the first block with the
    entrywise product of the other two, both contracted along their columns. -/
abbrev step (x0 x1 x2 : Vec F S1024x512 .f32) (acc : Vec F S1024x1024 .f32) : Vec F S1024x1024 .f32 :=
  k0_pay2 x0 x1 x2 acc

/-- The cleared accumulator. -/
abbrev cleared : Vec F S1024x1024 .f32 := k0_pay1

/-- The output tile: the accumulator plus the bias row laid under every row. -/
abbrev withBias (acc : Vec F S1024x1024 .f32) (x3 : Vec F S1x1024 .f32) : Vec F S1024x1024 .f32 := k0_pay3 acc x3

/-- First point of a run: the accumulator is cleared, read back, and the point's partial product added. -/
theorem acc_first (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i) (x0 x1 x2 : Vec F S1024x512 .f32) (x3 : Vec F S1x1024 .f32) :
    sout0_A_0 c i a3 h3 a4 h4 a5 h5 a6 h6 a7 h7 a8 h8 hc0 hc1 x0 x1 x2 x3 = step x0 x1 x2 cleared := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h6.read_unread, h8.read_unread, View.ld_unit_zero (S := S1024x512) hz, View.ld_unit_zero (S := S1024x1024) hz, View.ld_unit_zero (S := S1x1024) hz]

/-- A middle point of a run: the point's partial product is added to what the point before left. -/
theorem acc_middle (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i) (x0 x1 x2 : Vec F S1024x512 .f32) (x3 : Vec F S1x1024 .f32) (xs0 : Vec F S1024x1024 .f32) :
    sout0_B_0 c i a3 h3 a4 h4 a5 h5 a6 h6 a7 h7 a8 h8 hc0 hc1 x0 x1 x2 x3 xs0 = step x0 x1 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h5.read_unread, h6.read_unread, h8.read_unread, View.ld_unit_zero (S := S1024x512) hz, View.ld_unit_zero (S := S1024x1024) hz, View.ld_unit_zero (S := S1x1024) hz]

/-- The last point of a run leaves the accumulator as a middle point does, -/
theorem acc_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 x1 x2 : Vec F S1024x512 .f32) (x3 : Vec F S1x1024 .f32) (xs0 : Vec F S1024x1024 .f32) :
    sout0_C_0 c i a3 h3 a4 h4 a5 h5 a6 h6 a7 h7 a8 h8 hc0 hc1 x0 x1 x2 x3 xs0 = step x0 x1 x2 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread, View.ld_unit_zero (S := S1024x512) hz, View.ld_unit_zero (S := S1024x1024) hz, View.ld_unit_zero (S := S1x1024) hz]

/-- and writes that accumulator plus the bias row to the output tile. -/
theorem out_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (x0 x1 x2 : Vec F S1024x512 .f32) (x3 : Vec F S1x1024 .f32) (xs0 : Vec F S1024x1024 .f32) :
    out0_C_4 c i a3 h3 a4 h4 a5 h5 a6 h6 a7 h7 a8 h8 hc0 hc1 x0 x1 x2 x3 xs0 = withBias (step x0 x1 x2 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz]
  simp only [View.readCov_unit_zero (S := S1024x1024) _ hz, View.readAt_eq_ld, h3.read_unread, h4.read_unread, h5.read_unread, h6.read_unread, h8.read_unread, View.ld_unit_zero (S := S1024x512) hz, View.ld_unit_zero (S := S1024x1024) hz, View.ld_unit_zero (S := S1x1024) hz]

end Cert.KernelIdeal.Tile

end
-- ==== Proof.LibProductNT.lean ====
/-
  A matrix times the transpose of another, over the extended reals.

  Entry (a, b) of A·Bᵀ, for an r×k matrix A and an n×k matrix B, is the sum over the shared column coordinate c of
  A(a, c) · B(b, c). Addition of extended reals is commutative and associative, so this is a plain finite sum: no order
  of summation is left in it and nothing asks that an entry be finite.

  The matrix unit forms such a product (both operands contracted along axis 1) and adds it to an accumulator; into a zero
  accumulator it leaves exactly that entry (`matmul_zero_apply`), whatever float formats the factors were narrowed to on
  the way, a change of format being the identity at the ideal values.

  A long row splits into consecutive stretches of equal length: a sum over m·n columns is the sum over the m stretches of
  the sums over each stretch's n columns (`sum_stretches`).
-/
import Idealize.ShloMosaic.Lib.ValueIdx
import Idealize.ShloMosaic.PureOps.Ideal.Laws
import Mathlib.Algebra.BigOperators.Fin
import Mathlib.Logic.Equiv.Fin.Basic

noncomputable section

namespace ProductNT

open Idealize.ShloMosaic Idealize.ShloMosaic.ValueIdx

variable {r k n : Nat}

/-- Entry (a, b) of A·Bᵀ. -/
def entry (A : (⟨2, ![r, k]⟩ : Shape).Idx → EReal) (B : (⟨2, ![n, k]⟩ : Shape).Idx → EReal) (a : Fin r) (b : Fin n) : EReal :=
  ∑ c : Fin k, A (ix2 a c) * B (ix2 b c)

/-- The matrix unit's product of an r×k by an n×k operand, both contracted along their second axis, accumulated into a
    zero block and read at (a, b), is that entry. -/
theorem matmul_zero_apply {φ₁ φ₂ : FTy}
    (w : DotDims.WF ⟨2, ![r, k]⟩ ⟨2, ![n, k]⟩ ⟨2, ![r, n]⟩ [1] [1] [0] [0] [] [])
    (prec : Option ContractPrecision) (A : FVec Ideal ⟨2, ![r, k]⟩ φ₁) (B : FVec Ideal ⟨2, ![n, k]⟩ φ₂) (a : Fin r) (b : Fin n) :
    matmul (⟨[1], [1], [0], [0], [], [], w⟩ : DotDims _ _ _) prec A B (constant (F := Ideal) ⟨2, ![r, n]⟩ .f32 0x00000000#32) (ix2 a b)
      = entry A B a b := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![r, k]⟩ ⟨2, ![n, k]⟩ ⟨2, ![r, n]⟩) k rfl rfl c
  have l2 : (⟨[1], [1], [0], [0], [], [], w⟩ : DotDims ⟨2, ![r, k]⟩ ⟨2, ![n, k]⟩ ⟨2, ![r, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![r, k]⟩ ⟨2, ![n, k]⟩ ⟨2, ![r, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A sum over m·n consecutive columns is the sum, over the m stretches of n columns, of each stretch's sum. -/
theorem sum_stretches {M : Type*} [AddCommMonoid M] (m n : Nat) (f : Fin (m * n) → M) :
    ∑ c : Fin (m * n), f c
      = ∑ s : Fin m, ∑ j : Fin n, f ⟨s.val * n + j.val, by
          have hs := s.isLt; have hj := j.isLt
          calc s.val * n + j.val < s.val * n + n := by omega
            _ = (s.val + 1) * n := by ring
            _ ≤ m * n := Nat.mul_le_mul_right n hs⟩ := by
  rw [← Equiv.sum_comp finProdFinEquiv f, Fintype.sum_prod_type]
  refine Finset.sum_congr rfl fun s _ => Finset.sum_congr rfl fun j _ => congrArg f (Fin.ext ?_)
  show j.val + n * s.val = s.val * n + j.val
  rw [Nat.mul_comm, Nat.add_comm]

end ProductNT

end
-- ==== Proof.Entries.lean ====
/-
  The three values a grid point computes, read at an entry, over the extended reals.

  At the ideal values a change of float format is the identity, so the narrowed operands of the matrix product are the
  loaded blocks themselves: the product, accumulated into zero, has at (p, q) the sum over the block's 512 columns k of
  x0(p, k) · (x1(q, k) · x2(q, k)). The accumulator step adds that to the accumulator's entry; the cleared accumulator
  is zero everywhere; the output tile adds to each row the one row of the bias block.
-/
import proofs.«142406_j6914897347207_1_alg».proof.Proof.Pieces
import proofs.«142406_j6914897347207_1_alg».proof.Proof.LibProductNT
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.TcCoe Idealize.ShloMosaic.ValueIdx

/-- The cleared accumulator is zero at every entry. -/
theorem cleared_apply (p q : Fin 1024) : (cleared (F := Ideal)) (ix2 p q) = 0 := by
  unfold cleared k0_pay1
  refine (congrFun (shapeCast_self _ _) (ix2 p q)).trans ?_
  exact Ideal.ofBits_zero_f32

/-- One accumulator step at (p, q): the accumulator's entry plus the block product's entry. -/
theorem step_apply (x0 x1 x2 : Vec Ideal S1024x512 .f32) (acc : Vec Ideal S1024x1024 .f32) (p q : Fin 1024) :
    step x0 x1 x2 acc (ix2 p q) = acc (ix2 p q) + ∑ k : Fin 512, x0 (ix2 p k) * (x1 (ix2 q k) * x2 (ix2 q k)) := by
  unfold step k0_pay2
  refine (congrFun (shapeCast_self _ _) (ix2 p q)).trans ?_
  refine congrArg (acc (ix2 p q) + ·) ?_
  exact ProductNT.matmul_zero_apply (φ₁ := .bf16) (φ₂ := .bf16) Facts₀.dot_S1024x512_S1024x512_S1024x1024_1_1_0_0_n_n_wf none
    (truncf .bf16 x0 Facts₀.bitsLt_bf16_f32) (truncf .bf16 (mulf x1 x2) Facts₀.bitsLt_bf16_f32) p q

/-- The output tile at (p, q): the accumulator's entry plus the bias block's entry in column q. -/
theorem withBias_apply (acc : Vec Ideal S1024x1024 .f32) (x3 : Vec Ideal S1x1024 .f32) (p q : Fin 1024) :
    withBias acc x3 (ix2 p q) = acc (ix2 p q) + x3 (ix2 (0 : Fin 1) q) := by
  unfold withBias k0_pay3
  refine congrArg (acc (ix2 p q) + ·) ?_
  refine (broadcastTo_apply _ Facts₀.broadcasts_S1x1024_S1024x1024 (ix2 p q) (ix2 (0 : Fin 1) q) ?_).trans ?_
  · intro a
    match a with
    | ⟨0, _⟩ => show 0 = if (1 : Nat) = 1 then 0 else p.val; rw [if_pos rfl]
    | ⟨1, _⟩ => show q.val = if (1024 : Nat) = 1 then 0 else q.val; rw [if_neg (by decide)]
  · exact congrFun (shapeCast_self _ _) _

end Cert.KernelIdeal.Tile

end
-- ==== Proof.Spec.lean ====
/-
  A linear layer whose weight is masked entry by entry, over the extended reals.

  For an 8192×4096 input A, a 4096×4096 weight W, a mask K of the weight's shape and a bias b of length 4096, the layer's
  output at (i, j) is the sum over the 4096 shared columns c of A(i, c) · (W(j, c) · K(j, c)), plus b(j)  (`layer`).

  The same number is reached tile by tile: the 4096 columns are cut into 8 consecutive stretches of 512, the partial sum
  of each stretch is added to a running total that starts at zero, and the bias is added at the end. Addition of extended
  reals is commutative and associative, so the 8 partial sums add up to the whole sum whatever the entries are
  (`stretches_total`); nothing here asks that an entry be finite.

  The tiles are numbered as a 8 × 4 × 8 grid walks them, the last coordinate fastest: tile n works on output rows
  1024·(n / 32) …, output columns 1024·((n / 8) mod 4) … and shared columns 512·(n mod 8) …; a run of 8 consecutive
  tiles starting at a multiple of 8 therefore shares its output rows and columns and sweeps the shared columns once.
-/
import Idealize.ShloMosaic.Lib.ValueIdx
import Idealize.ShloMosaic.PureOps.Ideal
import Mathlib.Algebra.BigOperators.Fin
import proofs.«142406_j6914897347207_1_alg».proof.Proof.LibProductNT

noncomputable section

namespace SparseLinear

open Idealize.ShloMosaic Idealize.ShloMosaic.ValueIdx

/-- An entry of a matrix at natural-number coordinates; zero outside the matrix. -/
def at2 {R C : Nat} (X : (⟨2, ![R, C]⟩ : Shape).Idx → EReal) (r c : Nat) : EReal :=
  if h : r < R ∧ c < C then X (ix2 ⟨r, h.1⟩ ⟨c, h.2⟩) else 0

theorem at2_of_lt {R C : Nat} (X : (⟨2, ![R, C]⟩ : Shape).Idx → EReal) (r c : Nat) (hr : r < R) (hc : c < C) :
    at2 X r c = X (ix2 ⟨r, hr⟩ ⟨c, hc⟩) := dif_pos ⟨hr, hc⟩

variable (A : (⟨2, ![8192, 4096]⟩ : Shape).Idx → EReal) (W K : (⟨2, ![4096, 4096]⟩ : Shape).Idx → EReal)
  (b : (⟨1, ![4096]⟩ : Shape).Idx → EReal)

/-- One term of the contraction: input row `row`, weight row `col`, shared column `c`. -/
def term (row col c : Nat) : EReal := at2 A row c * (at2 W col c * at2 K col c)

/-- The layer. -/
def layer : (⟨2, ![8192, 4096]⟩ : Shape).Idx → EReal :=
  fun i => (∑ c : Fin 4096, A (ix2 (i 0) c) * (W (ix2 (i 1) c) * K (ix2 (i 1) c))) + b (ix1 (i 1))

/-- The layer at (row, col) is the sum of the contraction's terms there, plus the bias. -/
theorem layer_apply (i : (⟨2, ![8192, 4096]⟩ : Shape).Idx) (row col : Nat) (hrow : (i 0).val = row) (hcol : (i 1).val = col) :
    layer A W K b i = (∑ c : Fin 4096, term A W K row col c.val) + b (ix1 (i 1)) := by
  subst hrow hcol
  unfold layer term
  refine congrArg (· + b (ix1 (i 1))) (Finset.sum_congr rfl fun c _ => ?_)
  rw [at2_of_lt A _ _ (i 0).isLt c.isLt, at2_of_lt W _ _ (i 1).isLt c.isLt, at2_of_lt K _ _ (i 1).isLt c.isLt]
  rfl

/-- What tile `n` adds at the tile's entry (p, q): the partial sum over the tile's stretch of 512 shared columns. -/
def addend (n p q : Nat) : EReal :=
  ∑ k : Fin 512, term A W K (1024 * (n / 32) + p) (1024 * ((n / 8) % 4) + q) (512 * (n % 8) + k.val)

/-- The 8 tiles of a run starting at a multiple of 8 add up, at the entry (p, q), to the whole contraction for the
    run's output rows and columns. -/
theorem stretches_total (n0 : Nat) (h8 : n0 % 8 = 0) (p q : Nat) :
    ∑ s ∈ Finset.range (7 + 1), addend A W K (n0 + s) p q
      = ∑ c : Fin 4096, term A W K (1024 * (n0 / 32) + p) (1024 * ((n0 / 8) % 4) + q) c.val := by
  have same : ∀ s ∈ Finset.range (7 + 1), addend A W K (n0 + s) p q
      = ∑ k : Fin 512, term A W K (1024 * (n0 / 32) + p) (1024 * ((n0 / 8) % 4) + q) (s * 512 + k.val) := by
    intro s hs
    have hs' : s < 8 := by simpa using hs
    unfold addend
    have e1 : (n0 + s) / 32 = n0 / 32 := by omega
    have e2 : ((n0 + s) / 8) % 4 = (n0 / 8) % 4 := by omega
    have e3 : (n0 + s) % 8 = s := by omega
    rw [e1, e2, e3, Nat.mul_comm 512 s]
  rw [Finset.sum_congr rfl same, Finset.sum_range (fun s => ∑ k : Fin 512, term A W K (1024 * (n0 / 32) + p) (1024 * ((n0 / 8) % 4) + q) (s * 512 + k.val))]
  exact (ProductNT.sum_stretches 8 512 (fun c => term A W K (1024 * (n0 / 32) + p) (1024 * ((n0 / 8) % 4) + q) c.val)).symm

end SparseLinear

end
-- ==== Proof.Blocks.lean ====
/-
  The blocks a grid point works on, read off the arrays.

  The grid is 8 × 4 × 8, walked with the last coordinate fastest, so point t has coordinates
  (t / 32, (t / 8) mod 4, t mod 8). The input block is rows 1024·(t / 32) … and columns 512·(t mod 8) … of the input; the
  weight and mask blocks are rows 1024·((t / 8) mod 4) … and the same columns of the weight and of the mask; the bias block
  is columns 1024·((t / 8) mod 4) … of the bias row; the output tile is rows 1024·(t / 32) … and columns
  1024·((t / 8) mod 4) … of the output. With these, one accumulator step at point t adds, at every entry of the tile, the
  partial sum of the layer's contraction over point t's stretch of 512 shared columns.
-/
import proofs.«142406_j6914897347207_1_alg».proof.Proof.Gen.KernelIdeal.Frame
import proofs.«142406_j6914897347207_1_alg».proof.Proof.Entries
import proofs.«142406_j6914897347207_1_alg».proof.Proof.Spec

noncomputable section

namespace Cert.KernelIdeal.Tile

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The block index of every window at every grid point, in closed form. -/
theorem index_facts : ∀ t : Fin cfg0.N,
    win0_0.index t (0 : Fin 2) = t.val / 32 ∧ win0_0.index t (1 : Fin 2) = t.val % 8
    ∧ win0_1.index t (0 : Fin 2) = (t.val / 8) % 4 ∧ win0_1.index t (1 : Fin 2) = t.val % 8
    ∧ win0_2.index t (0 : Fin 2) = (t.val / 8) % 4 ∧ win0_2.index t (1 : Fin 2) = t.val % 8
    ∧ win0_3.index t (0 : Fin 2) = 0 ∧ win0_3.index t (1 : Fin 2) = (t.val / 8) % 4
    ∧ win0_4.index t (0 : Fin 2) = t.val / 32 ∧ win0_4.index t (1 : Fin 2) = (t.val / 8) % 4 :=
  (by decide +kernel : ∀ t : Fin grid0.N, _)

/-- The arrays as the kernel region finds them: the input, the weight, the mask, and the bias as a one-row matrix. -/
abbrev arrA (c : Dev nD) : Vec Ideal S8192x4096 .f32 := V m c main_arg0
abbrev arrW (c : Dev nD) : Vec Ideal S4096x4096 .f32 := V m c main_arg1
abbrev arrK (c : Dev nD) : Vec Ideal S4096x4096 .f32 := V m c main_arg3
abbrev arrB (c : Dev nD) : Vec Ideal S1x4096 .f32 := V m c main_v0

/-- The blocks of those arrays at point `t`. -/
abbrev blkA (c : Dev nD) (t : Fin cfg0.N) : Vec Ideal S1024x512 .f32 := iblk m c 0 t
abbrev blkW (c : Dev nD) (t : Fin cfg0.N) : Vec Ideal S1024x512 .f32 := iblk m c 1 t
abbrev blkK (c : Dev nD) (t : Fin cfg0.N) : Vec Ideal S1024x512 .f32 := iblk m c 2 t
abbrev blkB (c : Dev nD) (t : Fin cfg0.N) : Vec Ideal S1x1024 .f32 := iblk m c 3 t

theorem blkA_apply (c : Dev nD) (t : Fin cfg0.N) (p : Fin 1024) (k : Fin 512) :
    blkA m c t (ix2 p k) = SparseLinear.at2 (arrA m c) (1024 * (t.val / 32) + p.val) (512 * (t.val % 8) + k.val) := by
  obtain ⟨e0, e1, -⟩ := index_facts t
  have hN : t.val < 256 := lt_of_lt_of_eq t.isLt N_0
  rw [SparseLinear.at2_of_lt _ _ _ (by omega) (by omega)]
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = 1024 * (t.val / 32) + p.val; omega
  | ⟨1, _⟩ => show win0_0.index t (1 : Fin 2) * 512 + 1 * k.val = 512 * (t.val % 8) + k.val; omega

theorem blkW_apply (c : Dev nD) (t : Fin cfg0.N) (q : Fin 1024) (k : Fin 512) :
    blkW m c t (ix2 q k) = SparseLinear.at2 (arrW m c) (1024 * ((t.val / 8) % 4) + q.val) (512 * (t.val % 8) + k.val) := by
  obtain ⟨-, -, e0, e1, -⟩ := index_facts t
  have hN : t.val < 256 := lt_of_lt_of_eq t.isLt N_0
  rw [SparseLinear.at2_of_lt _ _ _ (by omega) (by omega)]
  show V m c main_arg1 (((cfg0.win 1).blk t).view.emb (ix2 q k)) = _
  refine congrArg (V m c main_arg1) (funext fun a => Fin.ext ?_)
  match a with
  | ⟨0, _⟩ => show win0_1.index t (0 : Fin 2) * 1024 + 1 * q.val = 1024 * ((t.val / 8) % 4) + q.val; omega
  | ⟨1, _⟩ => show win0_1.index t (1 : Fin 2) * 512 + 1 * k.val = 512 * (t.val % 8) + k.val; omega

theorem blkK_apply (c : Dev nD) (t : Fin cfg0.N) (q : Fin 1024) (k : Fin 512) :
    blkK m c t (ix2 q k) = SparseLinear.at2 (arrK m c) (1024 * ((t.val / 8) % 4) + q.val) (512 * (t.val % 8) + k.val) := by
  obtain ⟨-, -, -, -, e0, e1, -⟩ := index_facts t
  have hN : t.val < 256 := lt_of_lt_of_eq t.isLt N_0
  rw [SparseLinear.at2_of_lt _ _ _ (by omega) (by omega)]
  show V m c main_arg3 (((cfg0.win 2).blk t).view.emb (ix2 q k)) = _
  refine congrArg (V m c main_arg3) (funext fun a => Fin.ext ?_)
  match a with
  | ⟨0, _⟩ => show win0_2.index t (0 : Fin 2) * 1024 + 1 * q.val = 1024 * ((t.val / 8) % 4) + q.val; omega
  | ⟨1, _⟩ => show win0_2.index t (1 : Fin 2) * 512 + 1 * k.val = 512 * (t.val % 8) + k.val; omega

theorem blkB_apply (c : Dev nD) (t : Fin cfg0.N) (q : Fin 1024) :
    blkB m c t (ix2 (0 : Fin 1) q) = SparseLinear.at2 (arrB m c) 0 (1024 * ((t.val / 8) % 4) + q.val) := by
  obtain ⟨-, -, -, -, -, -, e0, e1, -⟩ := index_facts t
  have hN : t.val < 256 := lt_of_lt_of_eq t.isLt N_0
  rw [SparseLinear.at2_of_lt _ _ _ (by omega) (by omega)]
  show V m c main_v0 (((cfg0.win 3).blk t).view.emb (ix2 (0 : Fin 1) q)) = _
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 1024 + 1 * q.val = 1024 * ((t.val / 8) % 4) + q.val; omega

/-- One accumulator step at point `t`, at an entry of the tile: the accumulator's entry plus the layer's partial sum
    over the point's stretch of shared columns. -/
theorem step_point (c : Dev nD) (t : Fin cfg0.N) (acc : Vec Ideal S1024x1024 .f32) (i : S1024x1024.Idx) :
    step (blkA m c t) (blkW m c t) (blkK m c t) acc i
      = acc i + SparseLinear.addend (arrA m c) (arrW m c) (arrK m c) t.val (i 0).val (i 1).val := by
  obtain ⟨p, q, rfl⟩ : ∃ (p q : Fin 1024), i = ix2 p q := ⟨i 0, i 1, eq_ix2 i⟩
  rw [step_apply]
  refine congrArg (acc (ix2 p q) + ·) ?_
  unfold SparseLinear.addend SparseLinear.term
  refine Finset.sum_congr rfl fun k _ => ?_
  rw [blkA_apply, blkW_apply, blkK_apply]

end Cert.KernelIdeal.Tile

end
-- ==== Proof.Accumulate.lean ====
/-
  The accumulator along a run of grid points, and the tile the run's last point writes.

  The grid's last coordinate moves fastest, so points 8r, 8r + 1, …, 8r + 7 form one run: they share an output tile and
  sweep the 8 stretches of shared columns. The first point of the run clears the accumulator and adds its partial sum;
  each later point adds its own. After point 8r + j the accumulator therefore holds, at every entry, zero plus the sum
  of the partial sums of points 8r … 8r + j; the last point, j = 7, writes that plus the bias to the output tile, and
  the 8 partial sums together are the layer's whole contraction for the tile's rows and columns.
-/
import proofs.«142406_j6914897347207_1_alg».proof.Proof.Gen.KernelIdeal.Value
import proofs.«142406_j6914897347207_1_alg».proof.Proof.Blocks

noncomputable section

namespace Cert.KernelIdeal.Tile

open Cert.KernelIdeal Cert.KernelIdeal.Gen Cert.KernelIdeal.Value Idealize.ShloMosaic Idealize.ShloMosaic.TcCoe Idealize.ShloMosaic.ValueIdx Idealize.SL.Sem

variable (m : (ℓ : Loc nD τ sig) → Buf (Elt Ideal) ℓ)

/-- The partial sum point `n` adds at an entry of its tile. -/
abbrev part (c : Dev nD) (n : Nat) : S1024x1024.Idx → EReal :=
  fun i => SparseLinear.addend (arrA m c) (arrW m c) (arrK m c) n (i 0).val (i 1).val

theorem cleared_at (i : S1024x1024.Idx) : (cleared (F := Ideal)) i = 0 := by
  obtain ⟨p, q, rfl⟩ : ∃ (p q : Fin 1024), i = ix2 p q := ⟨i 0, i 1, eq_ix2 i⟩
  exact cleared_apply p q

/-- A run's first point leaves one step on the cleared accumulator, whatever the accumulator held. -/
theorem point_first (c : Dev nD) (n : ℕ) (hb : n < cfg0.N) (h0 : n % 8 = 0) (acc : Vec Ideal S1024x1024 .f32) :
    scAt0_0 m c n hb acc = step (blkA m c (⟨n, hb⟩ : Fin cfg0.N)) (blkW m c (⟨n, hb⟩ : Fin cfg0.N)) (blkK m c (⟨n, hb⟩ : Fin cfg0.N)) cleared := by
  have h1 : ¬n % 8 = 7 := by omega
  unfold scAt0_0
  rw [dif_pos h0, dif_neg h1]
  exact acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- Every other point leaves one step on what the point before left. -/
theorem point_later (c : Dev nD) (n : ℕ) (hb : n < cfg0.N) (h0 : ¬n % 8 = 0) (acc : Vec Ideal S1024x1024 .f32) :
    scAt0_0 m c n hb acc = step (blkA m c (⟨n, hb⟩ : Fin cfg0.N)) (blkW m c (⟨n, hb⟩ : Fin cfg0.N)) (blkK m c (⟨n, hb⟩ : Fin cfg0.N)) acc := by
  unfold scAt0_0
  rw [dif_neg h0]
  by_cases h1 : n % 8 = 7
  · rw [dif_pos h1]
    exact acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
  · rw [dif_neg h1]
    exact acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- The accumulator after point `t`, at an entry: zero plus the partial sums of the run's points up to `t`. -/
theorem acc_after (c : Dev nD) (t : Fin cfg0.N) (i : S1024x1024.Idx) :
    (outsAt0 m c t.val t.isLt).2 i
      = 0 + ∑ s ∈ Finset.range (t.val % 8 + 1), part m c (8 * (t.val / 8) + s) i := by
  have hN : cfg0.N = 256 := N_0
  rw [soutsAt0_0_eq m c t]
  refine Pipeline.accAt_add_apply (ι := S1024x1024.Idx) (β := EReal)
    (fun n h => scAt0_0 m c n h (VS0_0.read (Elt Ideal) VS0_0.junk)) (scAt0_0 m c) (fun _ => 0) (part m c) (8 * (t.val / 8)) 7
    ?_ ?_ (t.val % 8) (by omega) _ i
  · intro h i
    show scAt0_0 m c (8 * (t.val / 8)) h (VS0_0.read (Elt Ideal) VS0_0.junk) i = 0 + part m c (8 * (t.val / 8)) i
    rw [point_first m c _ h (by omega), step_point m c ⟨8 * (t.val / 8), h⟩ cleared i, cleared_at]
  · intro n h acc i h1 h2
    rw [point_later m c n h (by omega)]
    exact step_point m c ⟨n, h⟩ acc i

/-- At the last point of a run the output tile is the accumulator the point leaves, plus the bias block's row. -/
theorem out_after (c : Dev nD) (t : Fin cfg0.N) (h7 : t.val % 8 = 7) :
    (outsAt0 m c t.val t.isLt).1 = withBias ((outsAt0 m c t.val t.isLt).2) (blkB m c t) := by
  have h0 : ¬t.val % 8 = 0 := by omega
  rw [outsAt0_C m c t h0 h7]
  dsimp only
  refine (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2).trans ?_
  exact congrArg (fun a => withBias a (blkB m c t)) (acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2).symm

end Cert.KernelIdeal.Tile

end
-- ==== Proof.Result.lean ====
/-
  The output array after the run is the masked linear layer of the launch arrays.

  Only the last point of each run of 8 writes its tile back. What it writes is the accumulated sum of the run's 8
  partial sums plus the bias, which at every entry is the layer's value at that entry of the array: the 8 stretches of
  512 shared columns make up all 4096. The 32 tiles written (8 row tiles × 4 column tiles of 1024 × 1024) cover the
  8192 × 4096 output, so the whole array ends at the layer. The bias reaches the kernel as a one-row matrix; its entry
  (0, j) is the bias vector's entry j.
-/
import proofs.«142406_j6914897347207_1_alg».proof.Proof.Accumulate
import Idealize.ShloMosaic.Lib.StableHlo.Run

noncomputable section

namespace Cert.KernelIdeal.Tile

open Cert.KernelIdeal Cert.KernelIdeal.Gen Cert.KernelIdeal.Value Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer of the arrays as the kernel region finds them, the bias read off its one-row form. -/
abbrev tileLayer (c : Dev nD) : Vec Ideal S8192x4096 .f32 :=
  SparseLinear.layer (arrA m c) (arrW m c) (arrK m c) (fun j => arrB m c (ix2 (0 : Fin 1) (j 0)))

/-- The layer of the launch arrays. -/
abbrev result (c : Dev nD) : Vec Ideal S8192x4096 .f32 :=
  SparseLinear.layer (m ((c : Thread nD τ).loc main_arg0)) (m ((c : Thread nD τ).loc main_arg1)) (m ((c : Thread nD τ).loc main_arg3))
    (m ((c : Thread nD τ).loc main_arg2))

/-- The one-row bias the region finds is the bias vector, entry by entry. -/
theorem arrB_apply (c : Dev nD) (j : Fin 4096) :
    arrB m c (ix2 (0 : Fin 1) j) = m ((c : Thread nD τ).loc main_arg2) (ix1 j) := by
  have e : (arrB m c : S1x4096.Idx → EReal)
      = shapeCast S1x4096 (m ((c : Thread nD τ).loc main_arg2)) Facts₀.shapeCasts_S4096_S1x4096 := by
    dsimp only [arrB, Gen.V, Gen.hostOps0]; after_results; rfl
  rw [e]
  refine (shapeCast_addUnit_apply ![4096] _ _ (ix2 (0 : Fin 1) j)).trans (congrArg _ (funext fun a => ?_))
  match a with
  | ⟨0, _⟩ => rfl

theorem tileLayer_eq (c : Dev nD) : tileLayer m c = result m c := by
  have eB : (fun j : S4096.Idx => arrB m c (ix2 (0 : Fin 1) (j 0))) = m ((c : Thread nD τ).loc main_arg2) := by
    funext j
    exact (arrB_apply m c (j 0)).trans (congrArg _ (eq_ix1 j).symm)
  show SparseLinear.layer (V m c main_arg0) (V m c main_arg1) (V m c main_arg3) _ = _
  rw [eB, V_main_arg0, V_main_arg1, V_main_arg3]

/-- What the last point of a run writes back is its tile of the layer. -/
theorem flushed_eq (c : Dev nD) (t : Fin cfg0.N) (hf : (cfg0.win 4).flush t = true) :
    (dats m 0 c).flushed 4 t = ((cfg0.win 4).blk t).view.read (Elt Ideal) (tileLayer m c) := by
  have h7 : t.val % 8 = 7 := (flush0_4 t).mp hf
  have hN : t.val < 256 := lt_of_lt_of_eq t.isLt N_0
  obtain ⟨-, -, -, -, -, -, -, -, e0, e1⟩ := index_facts t
  rw [flushed4, out_after m c t h7]
  funext y
  have hy0 : (y 0).val < 1024 := (y 0).isLt
  have hy1 : (y 1).val < 1024 := (y 1).isLt
  have ey : (cfg0.win 4).xinj (grid0.coords t) y = ix2 (⟨(y 0).val, hy0⟩ : Fin 1024) (⟨(y 1).val, hy1⟩ : Fin 1024) :=
    funext fun a => Fin.ext (by match a with | ⟨0, _⟩ => rfl | ⟨1, _⟩ => rfl)
  show withBias ((outsAt0 m c t.val t.isLt).2) (blkB m c t) ((cfg0.win 4).xinj (grid0.coords t) y) = tileLayer m c (((cfg0.win 4).blk t).view.emb y)
  rw [ey, withBias_apply, acc_after m c t (ix2 (⟨(y 0).val, hy0⟩ : Fin 1024) (⟨(y 1).val, hy1⟩ : Fin 1024)), blkB_apply, h7, zero_add]
  show (∑ s ∈ Finset.range (7 + 1), SparseLinear.addend (arrA m c) (arrW m c) (arrK m c) (8 * (t.val / 8) + s) (y 0).val (y 1).val) + _ = _
  rw [SparseLinear.stretches_total _ _ _ (8 * (t.val / 8)) (by omega) _ _]
  refine Eq.trans ?_ (SparseLinear.layer_apply (arrA m c) (arrW m c) (arrK m c) (fun j => arrB m c (ix2 (0 : Fin 1) (j 0)))
    (((cfg0.win 4).blk t).view.emb y)
    (1024 * (8 * (t.val / 8) / 32) + (y 0).val) (1024 * ((8 * (t.val / 8) / 8) % 4) + (y 1).val)
    (by show win0_4.index t (0 : Fin 2) * 1024 + 1 * (y 0).val = _; omega)
    (by show win0_4.index t (1 : Fin 2) * 1024 + 1 * (y 1).val = _; omega)).symm
  refine congrArg (_ + ·) ?_
  rw [SparseLinear.at2_of_lt _ _ _ (by omega) (by omega)]
  refine congrArg (arrB m c) (funext fun a => Fin.ext ?_)
  match a with
  | ⟨0, _⟩ => rfl
  | ⟨1, _⟩ => show 1024 * ((t.val / 8) % 4) + (y 1).val = win0_4.index t (1 : Fin 2) * 1024 + 1 * (y 1).val; omega

/-- An entry of the output is in point `t`'s tile iff each coordinate is in the tile's range on its axis. -/
theorem mem_tile (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v1).slice (win0_4.rect t)).set ↔ _
  rw [View.set_slice_whole, Rect.mem_set_unit]
  exact Iff.rfl

/-- Every entry of the output lies in the tile some run's last point writes. -/
theorem covered (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 256 := N_0
  obtain ⟨t, tv⟩ : ∃ t : Fin cfg0.N, t.val = 32 * ((i 0).val / 1024) + 8 * ((i 1).val / 1024) + 7 :=
    ⟨⟨32 * ((i 0).val / 1024) + 8 * ((i 1).val / 1024) + 7, by omega⟩, rfl⟩
  refine ⟨t, (flush0_4 t).mpr (by omega), ?_⟩
  rw [mem_tile]
  obtain ⟨-, -, -, -, -, -, -, -, e0, e1⟩ := index_facts t
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The output array after the run. -/
theorem final (c : Dev nD) : (dats m 0 c).arrAt 4 cfg0.N = result m c :=
  ((dats m 0 c).arrAt_eq_of_cover 4 (tileLayer m c) (fun t hf => flushed_eq m c t hf) covered).trans (tileLayer_eq m c)

/-- Every weakly fair execution of the kernel program ends with the output at the layer of the launch arrays and the
    arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Tile

end
-- ==== Proof.Reference.lean ====
/-
  The reference program is the masked linear layer.

  Its five host operations are: the entrywise product of weight and mask; the contraction of the input with that product
  along both operands' columns, which over the extended reals is a plain sum over the 4096 shared columns; the bias laid
  out as a one-row matrix and then under every output row; and the sum of the two. Read at an output entry (i, j) that is
  the sum over c of A(i, c) · (W(j, c) · K(j, c)), plus b(j).
-/
import proofs.«142406_j6914897347207_1_alg».proof.Proof.Gen.ReferenceIdeal.Read
import proofs.«142406_j6914897347207_1_alg».proof.Proof.Spec

noncomputable section

namespace Cert.ReferenceIdeal.Layer

open Cert.ReferenceIdeal Cert.ReferenceIdeal.Gen Cert.ReferenceIdeal.Read Idealize.ShloMosaic Idealize.ShloMosaic.ValueIdx

theorem left_index (i : S8192x4096.Idx) (k : Fin 4096) : lidx_main_v1 i k = ix2 (i 0) k :=
  funext fun a => Fin.ext (by match a with | ⟨0, _⟩ => rfl | ⟨1, _⟩ => rfl)

theorem right_index (i : S8192x4096.Idx) (k : Fin 4096) : ridx_main_v1 i k = ix2 (i 1) k :=
  funext fun a => Fin.ext (by match a with | ⟨0, _⟩ => rfl | ⟨1, _⟩ => rfl)

theorem bias_index (i : S8192x4096.Idx) : idx_main_v2 (idx_main_v3 i) = ix1 (i 1) :=
  funext fun a => Fin.ext (by match a with | ⟨0, _⟩ => rfl)

/-- The reference's result, as a function of its four arguments, is the layer. -/
theorem reference_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal)) :
    val_main_v4 (F := Ideal) x0 x1 x2 x3 = SparseLinear.layer x0 x1 x3 x2 := by
  funext i
  rw [val_main_v4_apply, val_main_v1_apply, val_main_v3_apply, val_main_v2_apply, bias_index]
  unfold SparseLinear.layer
  refine congrArg (· + x2 (ix1 (i 1))) (Finset.sum_congr rfl fun k _ => ?_)
  rw [val_main_v0_apply, left_index, right_index]
  rfl

end Cert.ReferenceIdeal.Layer

end
-- ==== Proof.lean ====
/-
  A linear layer with an entrywise-masked weight, computed tile by tile, against the same layer written as one
  contraction: out = A · (W ∘ K)ᵀ + b for an 8192×4096 input A, a 4096×4096 weight W and mask K, and a bias b.

  The kernel walks an 8 × 4 × 8 grid. For each of the 8 × 4 output tiles of 1024 × 1024 it sweeps the 4096 shared
  columns in 8 stretches of 512, adding each stretch's partial product into an accumulator that it clears at the first
  stretch, and at the last stretch writes the accumulator plus the bias to the output tile. Over the extended reals a
  change of float format is the identity and addition is commutative and associative, so the 8 partial sums are the whole
  sum over the shared columns whatever the entries are, and every output entry is the reference's: the sum over c of
  A(i, c) · (W(j, c) · K(j, c)), plus b(j). Finiteness of the inputs is not used.

  The three programs run and leave their arguments unchanged; the idealization rewrote nothing.
-/
import proofs.«142406_j6914897347207_1_alg».proof.Defs
import proofs.«142406_j6914897347207_1_alg».proof.Proof.Gen.Kernel
import proofs.«142406_j6914897347207_1_alg».proof.Proof.Gen.Kernel.Skeleton
import proofs.«142406_j6914897347207_1_alg».proof.Proof.Gen.Kernel.Launch
import proofs.«142406_j6914897347207_1_alg».proof.Proof.Gen.Kernel.Points
import proofs.«142406_j6914897347207_1_alg».proof.Proof.Gen.Kernel.Frame
import proofs.«142406_j6914897347207_1_alg».proof.Proof.Gen.KernelIdeal
import proofs.«142406_j6914897347207_1_alg».proof.Proof.Gen.KernelIdeal.Skeleton
import proofs.«142406_j6914897347207_1_alg».proof.Proof.Gen.KernelIdeal.Launch
import proofs.«142406_j6914897347207_1_alg».proof.Proof.Gen.KernelIdeal.Points
import proofs.«142406_j6914897347207_1_alg».proof.Proof.Gen.KernelIdeal.Frame
import proofs.«142406_j6914897347207_1_alg».proof.Proof.Gen.ReferenceIdeal
import proofs.«142406_j6914897347207_1_alg».proof.Proof.Gen.Pre_finite_inputs
import proofs.«142406_j6914897347207_1_alg».proof.Proof.Gen.KernelIdeal.Value
import proofs.«142406_j6914897347207_1_alg».proof.Proof.Gen.ReferenceIdeal.Run
import proofs.«142406_j6914897347207_1_alg».proof.Proof.Gen.ReferenceIdeal.Read
import proofs.«142406_j6914897347207_1_alg».proof.Proof.Result
import proofs.«142406_j6914897347207_1_alg».proof.Proof.Reference
import Idealize.ShloMosaic.Adequacy
import Idealize.ShloMosaic.Init

noncomputable section

namespace Cert.Proof

open Idealize.ShloMosaic Idealize.SL.Sem

/-- The kernel program runs and keeps its arguments, at the word level and at the ideal values. -/
theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference runs and keeps its arguments: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end at the layer of their arguments, and the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Layer.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
